-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S8192x1024 .f32) (main_arg5 : FVec F S512x2048 .f32) (main_arg6 : FVec F S1024x1024 .f32) (main_arg7 : FVec F S2048 .f32) (main_arg8 : FVec F S2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S512x2048 .f32) (main_arg6 : FVec F S1024x1024 .f32) (main_arg7 : FVec F S2048 .f32) (main_arg8 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S1x2048 : Shape := ⟨2, ![1, 2048]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 17
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S512x2048, .f32⟩
  | .hbm, ⟨6, _⟩ => ⟨S1024x1024, .f32⟩
  | .hbm, ⟨7, _⟩ => ⟨S2048, .f32⟩
  | .hbm, ⟨8, _⟩ => ⟨S2048, .f32⟩
  | .hbm, ⟨9, _⟩ => ⟨S512x2048, .bf16⟩
  | .hbm, ⟨10, _⟩ => ⟨S1024x1024, .bf16⟩
  | .hbm, ⟨11, _⟩ => ⟨S1x2048, .f32⟩
  | .hbm, ⟨12, _⟩ => ⟨S1x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x2048, .bf16⟩
  | .local _ .vmem, ⟨11, _⟩ => ⟨S1024x1024, .bf16⟩
  | .local _ .vmem, ⟨12, _⟩ => ⟨S1x2048, .f32⟩
  | .local _ .vmem, ⟨13, _⟩ => ⟨S1x2048, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S2048_S1x2048 : S2048.ShapeCasts S1x2048
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x2048_S512x1024_0_0 : ∀ a, (![0, 0] : Fin 2 → Nat) a + S512x1024.size a ≤ S512x2048.size a
  h_S512x1024 : 0 < S512x1024.numel
  shapeCasts_S512x1024_S512x1024 : S512x1024.ShapeCasts S512x1024
  inb_S512x2048_S512x1024_0_1024 : ∀ a, (![0, 1024] : Fin 2 → Nat) a + S512x1024.size a ≤ S512x2048.size a
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  inb_S1x2048_S1x1024_0_1024 : ∀ a, (![0, 1024] : Fin 2 → Nat) a + S1x1024.size a ≤ S1x2048.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S256x1024 : S1x1024.Broadcasts S256x1024
  natLt_1_32 : 1 < 32
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x2048 : Shape := ⟨2, ![512, 2048]⟩
abbrev S1024x1024 : Shape := ⟨2, ![1024, 1024]⟩
abbrev S2048 : Shape := ⟨1, ![2048]⟩
abbrev S512x1024 : Shape := ⟨2, ![512, 1024]⟩
abbrev S1024 : Shape := ⟨1, ![1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S512x2048, .f32⟩
  | .hbm, ⟨6, _⟩ => ⟨S1024x1024, .f32⟩
  | .hbm, ⟨7, _⟩ => ⟨S2048, .f32⟩
  | .hbm, ⟨8, _⟩ => ⟨S2048, .f32⟩
  | .hbm, ⟨9, _⟩ => ⟨S512x1024, .f32⟩
  | .hbm, ⟨10, _⟩ => ⟨S512x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .i1⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .i1⟩
  | .hbm, ⟨60, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_cst : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  slices_S512x2048_S512x1024_0_0 : S512x2048.Slices ![0, 0] S512x1024
  slices_S512x2048_S512x1024_0_1024 : S512x2048.Slices ![0, 1024] S512x1024
  slices_S2048_S1024_0 : S2048.Slices ![0] S1024
  slices_S2048_S1024_1024 : S2048.Slices ![1024] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  dot_S8192x512_S512x1024_S8192x1024_1_0_0_1_n_n_wf : DotDims.WF S8192x512 S512x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The excitatory/inhibitory spiking-cell step, stated once over the extended reals.

  A batch of 8192 cells-rows, 512 inputs, 2048 units split into an excitatory and an inhibitory half of 1024 each.
  With `X` the input, `Ye, Se` / `Yi, Si` the spikes and states of the two halves, `W` the input weights (columns
  `0 … 1023` excitatory, `1024 … 2047` inhibitory), `E` the recurrent weights, `B` the thresholds and `L` the leak gains:

      sExc[r, s] = max (X·W_exc + Ye + Yi·E  + L_exc ⊙ Se ⊙ (1 − Ye)) 0
      sInh[r, s] = max (X·W_inh + Yi − Ye·Eᵀ + L_inh ⊙ Si ⊙ (1 − Yi)) 0
      yExc[r, s] = [sExc[r, s] + B_exc[s] > 0],   yInh[r, s] = [sInh[r, s] + B_inh[s] > 0]

  with every product a finite sum over the contracted axis. Two small facts join the two programs to this statement:
  subtracting the product with the NEGATED recurrent weights is adding the product with the weights themselves, once the
  factors are real numbers (on the extended reals the sum of the negations is the negation of the sum only away from
  opposite infinities); and a one-bit comparison widened to 32 bits and read as a signed integer is the same number, 0 or 1,
  as the bit read as an unsigned one.
-/
import Idealize.ShloMosaic.PureOps.Ideal.Laws
import Idealize.ShloMosaic.Lib.ValueIdx

noncomputable section

open scoped BigOperators
open Idealize.ShloMosaic Idealize.ShloMosaic.ValueIdx

namespace Cert.Cell

/-- A matrix and a row of extended reals, over the literal shapes the programs print. -/
abbrev Mat (a b : Nat) : Type := (⟨2, ![a, b]⟩ : Shape).Idx → EReal
abbrev Row (a : Nat) : Type := (⟨1, ![a]⟩ : Shape).Idx → EReal

/-- Unit `s` of the excitatory half, and of the inhibitory half, as a column of the 2048 units. -/
abbrev exc (s : Fin 1024) : Fin 2048 := ⟨s.val, by have := s.isLt; omega⟩
abbrev inh (s : Fin 1024) : Fin 2048 := ⟨1024 + s.val, by have := s.isLt; omega⟩

/-- The two float literals of the step, as the programs spell them: `1.0` and `0.0`. -/
abbrev one : EReal := Ideal.ofBits .f32 0x3F800000#32
abbrev zero : EReal := Ideal.ofBits .f32 0x00000000#32

/-- The input drive of unit `col s`: row `r` of `X` against column `col s` of `W`. -/
def drive (X : Mat 8192 512) (W : Mat 512 2048) (col : Fin 1024 → Fin 2048) (r : Fin 8192) (s : Fin 1024) : EReal :=
  ∑ k : Fin 512, X (ix2 r k) * W (ix2 k (col s))

/-- Row `r` of `Y` against column `s` of `E`. -/
def recur (Y : Mat 8192 1024) (E : Mat 1024 1024) (r : Fin 8192) (s : Fin 1024) : EReal :=
  ∑ k : Fin 1024, Y (ix2 r k) * E (ix2 k s)

/-- Row `r` of `Y` against ROW `s` of `E`: the product with the transpose. -/
def recurT (Y : Mat 8192 1024) (E : Mat 1024 1024) (r : Fin 8192) (s : Fin 1024) : EReal :=
  ∑ k : Fin 1024, Y (ix2 r k) * E (ix2 s k)

/-- The leak term of unit `col s`: `L[col s] · S[r, s] · (1 − Y[r, s])`. -/
def leak (L : Row 2048) (S Y : Mat 8192 1024) (col : Fin 1024 → Fin 2048) (r : Fin 8192) (s : Fin 1024) : EReal :=
  (L (ix1 (col s)) * S (ix2 r s)) * (one - Y (ix2 r s))

/-- The new excitatory state. -/
def sExc (X : Mat 8192 512) (Ye Se Yi : Mat 8192 1024) (W : Mat 512 2048) (E : Mat 1024 1024) (L : Row 2048)
    (r : Fin 8192) (s : Fin 1024) : EReal :=
  max (((drive X W exc r s + Ye (ix2 r s)) + recur Yi E r s) + leak L Se Ye exc r s) zero

/-- The new inhibitory state. -/
def sInh (X : Mat 8192 512) (Ye Yi Si : Mat 8192 1024) (W : Mat 512 2048) (E : Mat 1024 1024) (L : Row 2048)
    (r : Fin 8192) (s : Fin 1024) : EReal :=
  max (((drive X W inh r s + Yi (ix2 r s)) - recurT Ye E r s) + leak L Si Yi inh r s) zero

/-- The spike of a potential `v`: the comparison `v > 0` as a one-bit word, widened to 32 bits and converted as a signed
    integer. -/
def fire (v : EReal) : EReal :=
  FloatOps.sitofp (F := Ideal) .f32 ((FloatOps.cmpf (F := Ideal) (φ := .f32) .ogt v zero).setWidth 32)

/-- The four result arrays. -/
def outSExc (X : Mat 8192 512) (Ye Se Yi : Mat 8192 1024) (W : Mat 512 2048) (E : Mat 1024 1024) (L : Row 2048) : Mat 8192 1024 :=
  fun i => sExc X Ye Se Yi W E L (i 0) (i 1)
def outYExc (X : Mat 8192 512) (Ye Se Yi : Mat 8192 1024) (W : Mat 512 2048) (E : Mat 1024 1024) (B L : Row 2048) : Mat 8192 1024 :=
  fun i => fire (sExc X Ye Se Yi W E L (i 0) (i 1) + B (ix1 (exc (i 1))))
def outSInh (X : Mat 8192 512) (Ye Yi Si : Mat 8192 1024) (W : Mat 512 2048) (E : Mat 1024 1024) (L : Row 2048) : Mat 8192 1024 :=
  fun i => sInh X Ye Yi Si W E L (i 0) (i 1)
def outYInh (X : Mat 8192 512) (Ye Yi Si : Mat 8192 1024) (W : Mat 512 2048) (E : Mat 1024 1024) (B L : Row 2048) : Mat 8192 1024 :=
  fun i => fire (sInh X Ye Yi Si W E L (i 0) (i 1) + B (ix1 (inh (i 1))))

/-! ## The one-bit comparison as a number -/

/-- A bit widened to 32 bits and read signed is the bit read unsigned. -/
theorem fire_eq_unsigned (b : BitVec 1) :
    FloatOps.sitofp (F := Ideal) .f32 (b.setWidth 32) = FloatOps.uitofp (F := Ideal) .f32 b := by
  have h : ∀ b : BitVec 1, (b.setWidth 32).toInt = (b.toNat : Int) := by decide
  show (((b.setWidth 32).toInt : ℝ) : EReal) = ((b.toNat : ℝ) : EReal)
  rw [h b]; norm_cast

/-! ## Subtracting the product with the negated weights -/

/-- A finite sum of real numbers, taken on the extended reals, is the real sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real factors, `a − Σ y·(−e) = a + Σ y·e`. -/
theorem sub_sum_mul_neg {ι : Type*} [Fintype ι] (a : EReal) (y e : ι → EReal)
    (hy : ∀ k, ∃ x : ℝ, y k = x) (he : ∀ k, ∃ x : ℝ, e k = x) :
    a - ∑ k, y k * -(e k) = a + ∑ k, y k * e k := by
  choose yr hyr using hy
  choose er her using he
  have h1 : ∑ k, y k * -(e k) = ((∑ k, -(yr k * er k) : ℝ) : EReal) := by
    rw [coe_sum]; refine Finset.sum_congr rfl fun k _ => ?_
    rw [hyr k, her k, EReal.coe_neg, EReal.coe_mul, mul_neg]
  have h2 : ∑ k, y k * e k = ((∑ k, yr k * er k : ℝ) : EReal) := by
    rw [coe_sum]; refine Finset.sum_congr rfl fun k _ => ?_
    rw [hyr k, her k, EReal.coe_mul]
  rw [h1, h2, Finset.sum_neg_distrib, EReal.coe_neg, sub_eq_add_neg, neg_neg]

end Cert.Cell

end
-- ==== Proof.LibMatmulPlain.lean ====
/-
  A plain matrix product read at one entry, on the extended reals.

  For the dimension numbers of an `[M, K]` by `[K, N]` product (contract the left operand's last axis with the right
  operand's first, no batch axis), the matrix unit's product accumulated into a zero block, and the host's
  `dot_general`, are both, at entry `(r, s)`, the sum over `k` of `lhs[r, k] · rhs[k, s]`: the contraction index has
  one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.Body.lean ====
/-
  The kernel's body at one entry of its block.

  At a grid point the body holds a 256-row block of the batch: `x0` (inputs), `x1, x2` (excitatory spikes and states),
  `x3, x4` (inhibitory spikes and states), and whole the input weights `x5` ([512, 2048], the excitatory units in columns
  `0 … 1023`, the inhibitory in `1024 … 2047`), the recurrent weights `x6`, and the rows `x7` (thresholds) and `x8` (leak
  gains), each [1, 2048] split the same way. Entry `(p, q)` of each of the four blocks it stores is the cell step's
  formula of those: the narrowing of the matrix products' operands is the identity on the extended reals, each product into
  a zero accumulator is the sum over the contracted axis, the row broadcasts read column `q` of the row.
-/
import proofs.«150868_j81862076661763_1_alg».proof.Proof.Gen.KernelIdeal.Frame
import proofs.«150868_j81862076661763_1_alg».proof.Proof.Spec
import proofs.«150868_j81862076661763_1_alg».proof.Proof.LibMatmulPlain
import proofs.«150868_j81862076661763_1_alg».proof.Proof.LibMatmulTransposedRhs
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The three matrix products -/

/-- Inputs against a half of the input weights: `Σ_k a[p, k] · b[k, q]`. -/
theorem mm_in (a : FVec Ideal S256x512 .bf16) (b : FVec Ideal S512x1024 .bf16) (p : Fin 256) (q : Fin 1024) :
    matmul dot_S256x512_S512x1024_S256x1024_1_0_0_1_n_n none a b (constant S256x1024 .f32 0x00000000#32) (ix2 p q)
      = ∑ k : Fin 512, a (ix2 p k) * b (ix2 k q) :=
  Cert.MatmulPlain.matmul_zero_apply (M := 256) (K := 512) (N := 1024) none a b p q

/-- Spikes against the recurrent weights: `Σ_k a[p, k] · b[k, q]`. -/
theorem mm_rec (a : FVec Ideal S256x1024 .bf16) (b : FVec Ideal S1024x1024 .bf16) (p : Fin 256) (q : Fin 1024) :
    matmul dot_S256x1024_S1024x1024_S256x1024_1_0_0_1_n_n none a b (constant S256x1024 .f32 0x00000000#32) (ix2 p q)
      = ∑ k : Fin 1024, a (ix2 p k) * b (ix2 k q) :=
  Cert.MatmulPlain.matmul_zero_apply (M := 256) (K := 1024) (N := 1024) none a b p q

/-- Spikes against the recurrent weights contracted on their LAST axis: `Σ_k a[p, k] · b[q, k]`. -/
theorem mm_recT (a : FVec Ideal S256x1024 .bf16) (b : FVec Ideal S1024x1024 .bf16) (p : Fin 256) (q : Fin 1024) :
    matmul dot_S256x1024_S1024x1024_S256x1024_1_1_0_0_n_n none a b (constant S256x1024 .f32 0x00000000#32) (ix2 p q)
      = ∑ k : Fin 1024, a (ix2 p k) * b (ix2 q k) :=
  Cert.MatmulTransposedRhs.matmul_zero_apply (M := 256) (K := 1024) (N := 1024) none a b p q

/-- A [1, 1024] row broadcast over the 256 rows of the block reads its column. -/
theorem row_bcast (l : FVec Ideal S1x1024 .f32) (p : Fin 256) (q : Fin 1024) :
    broadcastTo S256x1024 l broadcasts_S1x1024_S256x1024 (ix2 p q) = l (ix2 0 q) :=
  broadcastTo_apply l broadcasts_S1x1024_S256x1024 (ix2 p q) (ix2 0 q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-! ## The payloads at an entry -/

/-- The excitatory potential before the rectifier. -/
theorem pay12_apply (x0 : Vec Ideal S256x512 .f32) (x1 x2 x3 : Vec Ideal S256x1024 .f32) (w : Vec Ideal S512x1024 .bf16)
    (l : Vec Ideal S1x1024 .f32) (e : Vec Ideal S1024x1024 .bf16) (p : Fin 256) (q : Fin 1024) :
    k0_pay12 (F := Ideal) x0 x1 x2 x3 w l e (ix2 p q)
      = (((∑ k : Fin 512, x0 (ix2 p k) * w (ix2 k q)) + x1 (ix2 p q)) + ∑ k : Fin 1024, x3 (ix2 p k) * e (ix2 k q))
          + (l (ix2 0 q) * x2 (ix2 p q)) * (Cell.one - x1 (ix2 p q)) := by
  unfold k0_pay12 k0_pay10 k0_pay9
  dsimp only
  simp only [shapeCast_self]
  show (matmul (F := Ideal) dot_S256x512_S512x1024_S256x1024_1_0_0_1_n_n none (truncf (F := Ideal) .bf16 x0 bitsLt_bf16_f32) w (constant S256x1024 .f32 0x00000000#32) (ix2 p q)
        + x1 (ix2 p q)
        + matmul (F := Ideal) dot_S256x1024_S1024x1024_S256x1024_1_0_0_1_n_n none (truncf (F := Ideal) .bf16 x3 bitsLt_bf16_f32) e (constant S256x1024 .f32 0x00000000#32) (ix2 p q))
      + (broadcastTo (α := Ideal .f32) S256x1024 l broadcasts_S1x1024_S256x1024 (ix2 p q) * x2 (ix2 p q)) * (Cell.one - x1 (ix2 p q)) = _
  rw [mm_in, mm_rec, row_bcast]
  rfl

/-- The rectifier. -/
theorem pay1_apply (v : FVec Ideal S256x1024 .f32) (i : S256x1024.Idx) :
    k0_pay1 (F := Ideal) v i = max (v i) Cell.zero := rfl

/-- The inhibitory state. -/
theorem pay3_apply (v3 v4 : Vec Ideal S256x1024 .f32) (v8 : FVec Ideal S512x1024 .bf16) (v16 : FVec Ideal S1x1024 .f32)
    (v18 : FVec Ideal S1024x1024 .bf16) (v19 : FVec Ideal S256x512 .bf16) (v21 : FVec Ideal S256x1024 .bf16)
    (p : Fin 256) (q : Fin 1024) :
    k0_pay3 (F := Ideal) v3 v4 v8 v16 v18 v19 v21 (ix2 p q)
      = max ((((∑ k : Fin 512, v19 (ix2 p k) * v8 (ix2 k q)) + v3 (ix2 p q)) - ∑ k : Fin 1024, v21 (ix2 p k) * v18 (ix2 q k))
          + (v16 (ix2 0 q) * v4 (ix2 p q)) * (Cell.one - v3 (ix2 p q))) Cell.zero := by
  unfold k0_pay3
  show max ((matmul (F := Ideal) dot_S256x512_S512x1024_S256x1024_1_0_0_1_n_n none v19 v8 (constant S256x1024 .f32 0x00000000#32) (ix2 p q)
        + v3 (ix2 p q)
        - matmul (F := Ideal) dot_S256x1024_S1024x1024_S256x1024_1_1_0_0_n_n none v21 v18 (constant S256x1024 .f32 0x00000000#32) (ix2 p q))
      + (broadcastTo S256x1024 v16 broadcasts_S1x1024_S256x1024 (ix2 p q) * v4 (ix2 p q)) * (Cell.one - v3 (ix2 p q))) Cell.zero = _
  rw [mm_in, mm_recT, row_bcast]

/-- The spike of a state `v` against a threshold row `b`. -/
theorem spike_apply (v : FVec Ideal S256x1024 .f32) (b : FVec Ideal S1x1024 .f32) (p : Fin 256) (q : Fin 1024) :
    (sitofp .f32 (extui 32 (cmpf .ogt (addf v (broadcastTo S256x1024 b broadcasts_S1x1024_S256x1024))
        (broadcast S256x1024 (Scalar.ofBits (F := Ideal) .f32 0x00000000#32))) natLt_1_32) : FVec Ideal S256x1024 .f32) (ix2 p q)
      = Cell.fire (v (ix2 p q) + b (ix2 0 q)) := by
  show FloatOps.sitofp (F := Ideal) .f32 ((FloatOps.cmpf (F := Ideal) (φ := .f32) .ogt
      (v (ix2 p q) + broadcastTo S256x1024 b broadcasts_S1x1024_S256x1024 (ix2 p q)) Cell.zero).setWidth 32) = _
  rw [row_bcast]
  rfl

theorem pay2_apply (v10 : FVec Ideal S1x1024 .f32) (v31 : FVec Ideal S256x1024 .f32) (p : Fin 256) (q : Fin 1024) :
    k0_pay2 (F := Ideal) v10 v31 (ix2 p q) = Cell.fire (max (v31 (ix2 p q)) Cell.zero + v10 (ix2 0 q)) := by
  unfold k0_pay2
  exact spike_apply (k0_pay1 v31) v10 p q

theorem pay4_apply (v3 v4 : Vec Ideal S256x1024 .f32) (v8 : FVec Ideal S512x1024 .bf16) (v12 v16 : FVec Ideal S1x1024 .f32)
    (v18 : FVec Ideal S1024x1024 .bf16) (v19 : FVec Ideal S256x512 .bf16) (v21 : FVec Ideal S256x1024 .bf16)
    (p : Fin 256) (q : Fin 1024) :
    k0_pay4 (F := Ideal) v3 v4 v8 v12 v16 v18 v19 v21 (ix2 p q)
      = Cell.fire (k0_pay3 (F := Ideal) v3 v4 v8 v16 v18 v19 v21 (ix2 p q) + v12 (ix2 0 q)) := by
  unfold k0_pay4
  exact spike_apply (k0_pay3 v3 v4 v8 v16 v18 v19 v21) v12 p q

/-! ## What the body leaves in each output block, at an entry -/

theorem hz : (![0, 0] : Fin 2 → Nat) = fun _ => 0 := funext fun a => by fin_cases a <;> rfl

/-- Through the body's load rectangles: the excitatory half of the input weights is columns `0 … 1023`, -/
theorem idx_wexc (k : Fin 512) (q : Fin 1024) : r0_2.idx (ix2 k q) = ix2 k (Cell.exc q) := by
  funext a; apply Fin.ext
  match a with
  | ⟨0, _⟩ => show 0 + 1 * k.val = k.val; omega
  | ⟨1, _⟩ => show 0 + 1 * q.val = q.val; omega

/-- the inhibitory half columns `1024 … 2047`, -/
theorem idx_winh (k : Fin 512) (q : Fin 1024) : r0_3.idx (ix2 k q) = ix2 k (Cell.inh q) := by
  funext a; apply Fin.ext
  match a with
  | ⟨0, _⟩ => show 0 + 1 * k.val = k.val; omega
  | ⟨1, _⟩ => show 1024 + 1 * q.val = 1024 + q.val; omega

/-- and likewise the two halves of a [1, 2048] row. -/
theorem idx_rexc (q : Fin 1024) : r0_4.idx (ix2 0 q) = ix2 0 (Cell.exc q) := by
  funext a; apply Fin.ext
  match a with
  | ⟨0, _⟩ => show 0 + 1 * 0 = 0; omega
  | ⟨1, _⟩ => show 0 + 1 * q.val = q.val; omega

theorem idx_rinh (q : Fin 1024) : r0_5.idx (ix2 0 q) = ix2 0 (Cell.inh q) := by
  funext a; apply Fin.ext
  match a with
  | ⟨0, _⟩ => show 0 + 1 * 0 = 0; omega
  | ⟨1, _⟩ => show 1024 + 1 * q.val = 1024 + q.val; omega

/-- The excitatory state of the block, as a formula of the blocks. -/
def excOf (x0 : Vec Ideal S256x512 .f32) (x1 x2 x3 : Vec Ideal S256x1024 .f32) (x5 : Vec Ideal S512x2048 .bf16)
    (x6 : Vec Ideal S1024x1024 .bf16) (x8 : Vec Ideal S1x2048 .f32) (p : Fin 256) (q : Fin 1024) : EReal :=
  max ((((∑ k : Fin 512, x0 (ix2 p k) * x5 (ix2 k (Cell.exc q))) + x1 (ix2 p q)) + ∑ k : Fin 1024, x3 (ix2 p k) * x6 (ix2 k q))
      + (x8 (ix2 0 (Cell.exc q)) * x2 (ix2 p q)) * (Cell.one - x1 (ix2 p q))) Cell.zero

/-- The inhibitory state of the block, as a formula of the blocks. -/
def inhOf (x0 : Vec Ideal S256x512 .f32) (x1 x3 x4 : Vec Ideal S256x1024 .f32) (x5 : Vec Ideal S512x2048 .bf16)
    (x6 : Vec Ideal S1024x1024 .bf16) (x8 : Vec Ideal S1x2048 .f32) (p : Fin 256) (q : Fin 1024) : EReal :=
  max ((((∑ k : Fin 512, x0 (ix2 p k) * x5 (ix2 k (Cell.inh q))) + x3 (ix2 p q)) - ∑ k : Fin 1024, x1 (ix2 p k) * x6 (ix2 q k))
      + (x8 (ix2 0 (Cell.inh q)) * x4 (ix2 p q)) * (Cell.one - x3 (ix2 p q))) Cell.zero

theorem out10_apply (x0 : Vec Ideal S256x512 .f32) (x1 x2 x3 x4 : Vec Ideal S256x1024 .f32) (x5 : Vec Ideal S512x2048 .bf16)
    (x6 : Vec Ideal S1024x1024 .bf16) (x7 x8 : Vec Ideal S1x2048 .f32) (p : Fin 256) (q : Fin 1024) :
    out0_10 (F := Ideal) x0 x1 x2 x3 x4 x5 x6 x7 x8 (ix2 p q) = excOf x0 x1 x2 x3 x5 x6 x8 p q := by
  unfold out0_10
  rw [View.canon_unit_zero hz]
  simp only [View.ld_unit_zero (S := S256x512) hz, View.ld_unit_zero (S := S256x1024) hz, View.ld_unit_zero (S := S1024x1024) hz]
  rw [pay1_apply, pay12_apply]
  simp only [View.ld, idx_wexc, idx_rexc]
  rfl

theorem out9_apply (x0 : Vec Ideal S256x512 .f32) (x1 x2 x3 x4 : Vec Ideal S256x1024 .f32) (x5 : Vec Ideal S512x2048 .bf16)
    (x6 : Vec Ideal S1024x1024 .bf16) (x7 x8 : Vec Ideal S1x2048 .f32) (p : Fin 256) (q : Fin 1024) :
    out0_9 (F := Ideal) x0 x1 x2 x3 x4 x5 x6 x7 x8 (ix2 p q)
      = Cell.fire (excOf x0 x1 x2 x3 x5 x6 x8 p q + x7 (ix2 0 (Cell.exc q))) := by
  unfold out0_9
  rw [View.canon_unit_zero hz]
  simp only [View.ld_unit_zero (S := S256x512) hz, View.ld_unit_zero (S := S256x1024) hz, View.ld_unit_zero (S := S1024x1024) hz]
  rw [pay2_apply, pay12_apply]
  unfold k0_pay6
  simp only [shapeCast_self, View.ld, idx_wexc, idx_rexc]
  rfl

theorem out12_apply (x0 : Vec Ideal S256x512 .f32) (x1 x2 x3 x4 : Vec Ideal S256x1024 .f32) (x5 : Vec Ideal S512x2048 .bf16)
    (x6 : Vec Ideal S1024x1024 .bf16) (x7 x8 : Vec Ideal S1x2048 .f32) (p : Fin 256) (q : Fin 1024) :
    out0_12 (F := Ideal) x0 x1 x2 x3 x4 x5 x6 x7 x8 (ix2 p q) = inhOf x0 x1 x3 x4 x5 x6 x8 p q := by
  unfold out0_12
  rw [View.canon_unit_zero hz]
  simp only [View.ld_unit_zero (S := S256x512) hz, View.ld_unit_zero (S := S256x1024) hz, View.ld_unit_zero (S := S1024x1024) hz]
  rw [pay3_apply]
  unfold k0_pay5 k0_pay8 k0_pay9 k0_pay10 k0_pay11
  simp only [shapeCast_self, View.ld, idx_winh, idx_rinh, truncf_apply]
  rfl

theorem out11_apply (x0 : Vec Ideal S256x512 .f32) (x1 x2 x3 x4 : Vec Ideal S256x1024 .f32) (x5 : Vec Ideal S512x2048 .bf16)
    (x6 : Vec Ideal S1024x1024 .bf16) (x7 x8 : Vec Ideal S1x2048 .f32) (p : Fin 256) (q : Fin 1024) :
    out0_11 (F := Ideal) x0 x1 x2 x3 x4 x5 x6 x7 x8 (ix2 p q)
      = Cell.fire (inhOf x0 x1 x3 x4 x5 x6 x8 p q + x7 (ix2 0 (Cell.inh q))) := by
  unfold out0_11
  rw [View.canon_unit_zero hz]
  simp only [View.ld_unit_zero (S := S256x512) hz, View.ld_unit_zero (S := S256x1024) hz, View.ld_unit_zero (S := S1024x1024) hz]
  rw [pay4_apply, pay3_apply]
  unfold k0_pay5 k0_pay7 k0_pay8 k0_pay9 k0_pay10 k0_pay11
  simp only [shapeCast_self, View.ld, idx_winh, idx_rinh, truncf_apply]
  rfl

end Cert.KernelIdeal.Body

end
-- ==== Proof.Blocks.lean ====
/-
  From the kernel's blocks to its four result arrays.

  The grid has 32 points; point `t` holds rows `256·t … 256·t + 255` of the batch arrays (inputs, the two halves' spikes
  and states, and the four results), and the weights, thresholds and gains whole (narrowed, or reshaped to one row, by the
  host before the call: the identity on the extended reals, and a row read at its column). So entry `(p, q)` of the block
  point `t` writes back is the cell step at row `256·t + p` and unit `q` of the argument arrays, the 32 blocks tile each
  result array, and each array ends as the step's formula of the arguments.
-/
import proofs.«150868_j81862076661763_1_alg».proof.Proof.Gen.KernelIdeal.Value
import proofs.«150868_j81862076661763_1_alg».proof.Proof.Body
import Idealize.ShloMosaic.Lib.StableHlo.Run
import Idealize.ShloMosaic.Lib.Tactic

noncomputable section

open scoped BigOperators

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays -/

abbrev aX (c : Dev nD) : Cell.Mat 8192 512 := m ((c : Thread nD τ).loc main_arg0)
abbrev aYe (c : Dev nD) : Cell.Mat 8192 1024 := m ((c : Thread nD τ).loc main_arg1)
abbrev aSe (c : Dev nD) : Cell.Mat 8192 1024 := m ((c : Thread nD τ).loc main_arg2)
abbrev aYi (c : Dev nD) : Cell.Mat 8192 1024 := m ((c : Thread nD τ).loc main_arg3)
abbrev aSi (c : Dev nD) : Cell.Mat 8192 1024 := m ((c : Thread nD τ).loc main_arg4)
abbrev aW (c : Dev nD) : Cell.Mat 512 2048 := m ((c : Thread nD τ).loc main_arg5)
abbrev aE (c : Dev nD) : Cell.Mat 1024 1024 := m ((c : Thread nD τ).loc main_arg6)
abbrev aB (c : Dev nD) : Cell.Row 2048 := m ((c : Thread nD τ).loc main_arg7)
abbrev aL (c : Dev nD) : Cell.Row 2048 := m ((c : Thread nD τ).loc main_arg8)

/-- Row `p` of point `t`'s block is row `256·t + p` of the batch. -/
def row (t : Fin cfg0.N) (p : Fin 256) : Fin 8192 :=
  ⟨256 * t.val + p.val, by have := t.isLt; have h : cfg0.N = 32 := N_0; have := p.isLt; omega⟩

/-- The printed index maps, decided over the grid: the batch windows' block index is `(t, 0)`, the whole windows' `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input blocks' entries -/

theorem blk0 (c : Dev nD) (t : Fin cfg0.N) (p : Fin 256) (k : Fin 512) :
    (iblk m c 0 t : Vec Ideal S256x512 .f32) (ix2 p k) = aX m c (ix2 (row t p) k) := by
  unfold iblk
  rw [View.read_apply]
  show V m c main_arg0 _ = _
  rw [V_main_arg0]
  congr 1; funext a; apply Fin.ext
  match a with
  | ⟨0, _⟩ => show win0_0.index t 0 * 256 + 1 * p.val = 256 * t.val + p.val; rw [(idx_facts t).1.1]; omega
  | ⟨1, _⟩ => show win0_0.index t 1 * 512 + 1 * k.val = k.val; rw [(idx_facts t).1.2]; omega

theorem blk1 (c : Dev nD) (t : Fin cfg0.N) (p : Fin 256) (q : Fin 1024) :
    (iblk m c 1 t : Vec Ideal S256x1024 .f32) (ix2 p q) = aYe m c (ix2 (row t p) q) := by
  unfold iblk
  rw [View.read_apply]
  show V m c main_arg1 _ = _
  rw [V_main_arg1]
  congr 1; funext a; apply Fin.ext
  match a with
  | ⟨0, _⟩ => show win0_1.index t 0 * 256 + 1 * p.val = 256 * t.val + p.val; rw [(idx_facts t).2.1.1]; omega
  | ⟨1, _⟩ => show win0_1.index t 1 * 1024 + 1 * q.val = q.val; rw [(idx_facts t).2.1.2]; omega

theorem blk2 (c : Dev nD) (t : Fin cfg0.N) (p : Fin 256) (q : Fin 1024) :
    (iblk m c 2 t : Vec Ideal S256x1024 .f32) (ix2 p q) = aSe m c (ix2 (row t p) q) := by
  unfold iblk
  rw [View.read_apply]
  show V m c main_arg2 _ = _
  rw [V_main_arg2]
  congr 1; funext a; apply Fin.ext
  match a with
  | ⟨0, _⟩ => show win0_2.index t 0 * 256 + 1 * p.val = 256 * t.val + p.val; rw [(idx_facts t).2.2.1.1]; omega
  | ⟨1, _⟩ => show win0_2.index t 1 * 1024 + 1 * q.val = q.val; rw [(idx_facts t).2.2.1.2]; omega

theorem blk3 (c : Dev nD) (t : Fin cfg0.N) (p : Fin 256) (q : Fin 1024) :
    (iblk m c 3 t : Vec Ideal S256x1024 .f32) (ix2 p q) = aYi m c (ix2 (row t p) q) := by
  unfold iblk
  rw [View.read_apply]
  show V m c main_arg3 _ = _
  rw [V_main_arg3]
  congr 1; funext a; apply Fin.ext
  match a with
  | ⟨0, _⟩ => show win0_3.index t 0 * 256 + 1 * p.val = 256 * t.val + p.val; rw [(idx_facts t).2.2.2.1.1]; omega
  | ⟨1, _⟩ => show win0_3.index t 1 * 1024 + 1 * q.val = q.val; rw [(idx_facts t).2.2.2.1.2]; omega

theorem blk4 (c : Dev nD) (t : Fin cfg0.N) (p : Fin 256) (q : Fin 1024) :
    (iblk m c 4 t : Vec Ideal S256x1024 .f32) (ix2 p q) = aSi m c (ix2 (row t p) q) := by
  unfold iblk
  rw [View.read_apply]
  show V m c main_arg4 _ = _
  rw [V_main_arg4]
  congr 1; funext a; apply Fin.ext
  match a with
  | ⟨0, _⟩ => show win0_4.index t 0 * 256 + 1 * p.val = 256 * t.val + p.val; rw [(idx_facts t).2.2.2.2.1.1]; omega
  | ⟨1, _⟩ => show win0_4.index t 1 * 1024 + 1 * q.val = q.val; rw [(idx_facts t).2.2.2.2.1.2]; omega

/-! ## The whole windows: what the host wrote before the call -/

/-- The narrowed input weights are the input weights. -/
theorem v0_eq (c : Dev nD) : (V m c main_v0 : S512x2048.Idx → EReal) = aW m c := by
  have e : (V m c main_v0 : S512x2048.Idx → EReal) = truncf (F := Ideal) .bf16 (m ((c : Thread nD τ).loc main_arg5)) bitsLt_bf16_f32 := by
    dsimp only [Gen.V, Gen.hostOps0]; after_results <;> rfl
  rw [e]; rfl

/-- The narrowed recurrent weights are the recurrent weights. -/
theorem v1_eq (c : Dev nD) : (V m c main_v1 : S1024x1024.Idx → EReal) = aE m c := by
  have e : (V m c main_v1 : S1024x1024.Idx → EReal) = truncf (F := Ideal) .bf16 (m ((c : Thread nD τ).loc main_arg6)) bitsLt_bf16_f32 := by
    dsimp only [Gen.V, Gen.hostOps0]; after_results <;> rfl
  rw [e]; rfl

/-- The thresholds as one row: entry `(0, n)` is threshold `n`. -/
theorem v2_apply (c : Dev nD) (n : Fin 2048) : (V m c main_v2 : S1x2048.Idx → EReal) (ix2 0 n) = aB m c (ix1 n) := by
  have e : (V m c main_v2 : S1x2048.Idx → EReal) = shapeCast S1x2048 (m ((c : Thread nD τ).loc main_arg7)) shapeCasts_S2048_S1x2048 := by
    dsimp only [Gen.V, Gen.hostOps0]; after_results <;> rfl
  rw [e]
  refine (shapeCast_addUnit_apply ![2048] _ _ (ix2 0 n)).trans ?_
  congr 1; funext a; match a with | ⟨0, _⟩ => rfl

/-- The gains as one row: entry `(0, n)` is gain `n`. -/
theorem v3_apply (c : Dev nD) (n : Fin 2048) : (V m c main_v3 : S1x2048.Idx → EReal) (ix2 0 n) = aL m c (ix1 n) := by
  have e : (V m c main_v3 : S1x2048.Idx → EReal) = shapeCast S1x2048 (m ((c : Thread nD τ).loc main_arg8)) shapeCasts_S2048_S1x2048 := by
    dsimp only [Gen.V, Gen.hostOps0]; after_results <;> rfl
  rw [e]
  refine (shapeCast_addUnit_apply ![2048] _ _ (ix2 0 n)).trans ?_
  congr 1; funext a; match a with | ⟨0, _⟩ => rfl

theorem blk5 (c : Dev nD) (t : Fin cfg0.N) (k : Fin 512) (n : Fin 2048) :
    (iblk m c 5 t : Vec Ideal S512x2048 .bf16) (ix2 k n) = aW m c (ix2 k n) := by
  unfold iblk
  rw [View.read_apply]
  show V m c main_v0 _ = _
  rw [v0_eq]
  congr 1; funext a; apply Fin.ext
  match a with
  | ⟨0, _⟩ => show win0_5.index t 0 * 512 + 1 * k.val = k.val; rw [(idx_facts t).2.2.2.2.2.1.1]; omega
  | ⟨1, _⟩ => show win0_5.index t 1 * 2048 + 1 * n.val = n.val; rw [(idx_facts t).2.2.2.2.2.1.2]; omega

theorem blk6 (c : Dev nD) (t : Fin cfg0.N) (k n : Fin 1024) :
    (iblk m c 6 t : Vec Ideal S1024x1024 .bf16) (ix2 k n) = aE m c (ix2 k n) := by
  unfold iblk
  rw [View.read_apply]
  show V m c main_v1 _ = _
  rw [v1_eq]
  congr 1; funext a; apply Fin.ext
  match a with
  | ⟨0, _⟩ => show win0_6.index t 0 * 1024 + 1 * k.val = k.val; rw [(idx_facts t).2.2.2.2.2.2.1.1]; omega
  | ⟨1, _⟩ => show win0_6.index t 1 * 1024 + 1 * n.val = n.val; rw [(idx_facts t).2.2.2.2.2.2.1.2]; omega

theorem blk7 (c : Dev nD) (t : Fin cfg0.N) (n : Fin 2048) :
    (iblk m c 7 t : Vec Ideal S1x2048 .f32) (ix2 0 n) = aB m c (ix1 n) := by
  unfold iblk
  rw [View.read_apply]
  show V m c main_v2 _ = _
  refine Eq.trans ?_ (v2_apply m c n)
  congr 1; funext a; apply Fin.ext
  match a with
  | ⟨0, _⟩ => show win0_7.index t 0 * 1 + 1 * 0 = 0; rw [(idx_facts t).2.2.2.2.2.2.2.1.1]
  | ⟨1, _⟩ => show win0_7.index t 1 * 2048 + 1 * n.val = n.val; rw [(idx_facts t).2.2.2.2.2.2.2.1.2]; omega

theorem blk8 (c : Dev nD) (t : Fin cfg0.N) (n : Fin 2048) :
    (iblk m c 8 t : Vec Ideal S1x2048 .f32) (ix2 0 n) = aL m c (ix1 n) := by
  unfold iblk
  rw [View.read_apply]
  show V m c main_v3 _ = _
  refine Eq.trans ?_ (v3_apply m c n)
  congr 1; funext a; apply Fin.ext
  match a with
  | ⟨0, _⟩ => show win0_8.index t 0 * 1 + 1 * 0 = 0; rw [(idx_facts t).2.2.2.2.2.2.2.2.1.1]
  | ⟨1, _⟩ => show win0_8.index t 1 * 2048 + 1 * n.val = n.val; rw [(idx_facts t).2.2.2.2.2.2.2.2.1.2]; omega

/-! ## The blocks' states are the cell step at the batch row -/

theorem exc_blk (c : Dev nD) (t : Fin cfg0.N) (p : Fin 256) (q : Fin 1024) :
    excOf (iblk m c 0 t) (iblk m c 1 t) (iblk m c 2 t) (iblk m c 3 t) (iblk m c 5 t) (iblk m c 6 t) (iblk m c 8 t) p q
      = Cell.sExc (aX m c) (aYe m c) (aSe m c) (aYi m c) (aW m c) (aE m c) (aL m c) (row t p) q := by
  unfold excOf Cell.sExc Cell.drive Cell.recur Cell.leak
  simp only [blk0 m c t, blk1 m c t, blk2 m c t, blk3 m c t, blk5 m c t, blk6 m c t, blk8 m c t]

theorem inh_blk (c : Dev nD) (t : Fin cfg0.N) (p : Fin 256) (q : Fin 1024) :
    inhOf (iblk m c 0 t) (iblk m c 1 t) (iblk m c 3 t) (iblk m c 4 t) (iblk m c 5 t) (iblk m c 6 t) (iblk m c 8 t) p q
      = Cell.sInh (aX m c) (aYe m c) (aYi m c) (aSi m c) (aW m c) (aE m c) (aL m c) (row t p) q := by
  unfold inhOf Cell.sInh Cell.drive Cell.recurT Cell.leak
  simp only [blk0 m c t, blk1 m c t, blk3 m c t, blk4 m c t, blk5 m c t, blk6 m c t, blk8 m c t]

/-! ## The four result arrays -/

/-- The new excitatory spikes, the new excitatory states, the new inhibitory spikes, the new inhibitory states. -/
def G9 (c : Dev nD) : Cell.Mat 8192 1024 := Cell.outYExc (aX m c) (aYe m c) (aSe m c) (aYi m c) (aW m c) (aE m c) (aB m c) (aL m c)
def G10 (c : Dev nD) : Cell.Mat 8192 1024 := Cell.outSExc (aX m c) (aYe m c) (aSe m c) (aYi m c) (aW m c) (aE m c) (aL m c)
def G11 (c : Dev nD) : Cell.Mat 8192 1024 := Cell.outYInh (aX m c) (aYe m c) (aYi m c) (aSi m c) (aW m c) (aE m c) (aB m c) (aL m c)
def G12 (c : Dev nD) : Cell.Mat 8192 1024 := Cell.outSInh (aX m c) (aYe m c) (aYi m c) (aSi m c) (aW m c) (aE m c) (aL m c)

/-- Entry `(p, q)` of point `t`'s block of result window 9 sits at `(256·t + p, q)` of the array. -/
theorem emb9 (t : Fin cfg0.N) (p : Fin 256) (q : Fin 1024) :
    ((cfg0.win 9).blk t).view.emb (ix2 p q) = (ix2 (row t p) q : S8192x1024.Idx) := by
  funext a; apply Fin.ext
  match a with
  | ⟨0, _⟩ => show win0_9.index t 0 * 256 + 1 * p.val = 256 * t.val + p.val; rw [(idx_facts t).2.2.2.2.2.2.2.2.2.1.1]; omega
  | ⟨1, _⟩ => show win0_9.index t 1 * 1024 + 1 * q.val = q.val; rw [(idx_facts t).2.2.2.2.2.2.2.2.2.1.2]; omega

/-- The 32 blocks of result window 9 tile its array: row `i` is in the block of point `i / 256`. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  have ht : (i 0).val / 256 < cfg0.N := by rw [hN]; omega
  refine ⟨⟨(i 0).val / 256, ht⟩, flush0_9 _, ?_⟩
  show i ∈ ((View.whole main_v4_0).slice (win0_9.rect ⟨(i 0).val / 256, ht⟩)).set
  rw [View.set_slice_whole, Rect.mem_set_unit]
  intro a
  match a with
  | ⟨0, _⟩ =>
    show win0_9.index ⟨(i 0).val / 256, ht⟩ 0 * 256 ≤ (i 0).val ∧ (i 0).val < win0_9.index ⟨(i 0).val / 256, ht⟩ 0 * 256 + 256
    rw [(idx_facts ⟨(i 0).val / 256, ht⟩).2.2.2.2.2.2.2.2.2.1.1]
    show (i 0).val / 256 * 256 ≤ (i 0).val ∧ (i 0).val < (i 0).val / 256 * 256 + 256
    omega
  | ⟨1, _⟩ =>
    show win0_9.index ⟨(i 0).val / 256, ht⟩ 1 * 1024 ≤ (i 1).val ∧ (i 1).val < win0_9.index ⟨(i 0).val / 256, ht⟩ 1 * 1024 + 1024
    rw [(idx_facts ⟨(i 0).val / 256, ht⟩).2.2.2.2.2.2.2.2.2.1.2]
    omega

/-- Entry `(p, q)` of point `t`'s block of result window 10 sits at `(256·t + p, q)` of the array. -/
theorem emb10 (t : Fin cfg0.N) (p : Fin 256) (q : Fin 1024) :
    ((cfg0.win 10).blk t).view.emb (ix2 p q) = (ix2 (row t p) q : S8192x1024.Idx) := by
  funext a; apply Fin.ext
  match a with
  | ⟨0, _⟩ => show win0_10.index t 0 * 256 + 1 * p.val = 256 * t.val + p.val; rw [(idx_facts t).2.2.2.2.2.2.2.2.2.2.1.1]; omega
  | ⟨1, _⟩ => show win0_10.index t 1 * 1024 + 1 * q.val = q.val; rw [(idx_facts t).2.2.2.2.2.2.2.2.2.2.1.2]; omega

/-- The 32 blocks of result window 10 tile its array: row `i` is in the block of point `i / 256`. -/
theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  have ht : (i 0).val / 256 < cfg0.N := by rw [hN]; omega
  refine ⟨⟨(i 0).val / 256, ht⟩, flush0_10 _, ?_⟩
  show i ∈ ((View.whole main_v4_1).slice (win0_10.rect ⟨(i 0).val / 256, ht⟩)).set
  rw [View.set_slice_whole, Rect.mem_set_unit]
  intro a
  match a with
  | ⟨0, _⟩ =>
    show win0_10.index ⟨(i 0).val / 256, ht⟩ 0 * 256 ≤ (i 0).val ∧ (i 0).val < win0_10.index ⟨(i 0).val / 256, ht⟩ 0 * 256 + 256
    rw [(idx_facts ⟨(i 0).val / 256, ht⟩).2.2.2.2.2.2.2.2.2.2.1.1]
    show (i 0).val / 256 * 256 ≤ (i 0).val ∧ (i 0).val < (i 0).val / 256 * 256 + 256
    omega
  | ⟨1, _⟩ =>
    show win0_10.index ⟨(i 0).val / 256, ht⟩ 1 * 1024 ≤ (i 1).val ∧ (i 1).val < win0_10.index ⟨(i 0).val / 256, ht⟩ 1 * 1024 + 1024
    rw [(idx_facts ⟨(i 0).val / 256, ht⟩).2.2.2.2.2.2.2.2.2.2.1.2]
    omega

/-- Entry `(p, q)` of point `t`'s block of result window 11 sits at `(256·t + p, q)` of the array. -/
theorem emb11 (t : Fin cfg0.N) (p : Fin 256) (q : Fin 1024) :
    ((cfg0.win 11).blk t).view.emb (ix2 p q) = (ix2 (row t p) q : S8192x1024.Idx) := by
  funext a; apply Fin.ext
  match a with
  | ⟨0, _⟩ => show win0_11.index t 0 * 256 + 1 * p.val = 256 * t.val + p.val; rw [(idx_facts t).2.2.2.2.2.2.2.2.2.2.2.1.1]; omega
  | ⟨1, _⟩ => show win0_11.index t 1 * 1024 + 1 * q.val = q.val; rw [(idx_facts t).2.2.2.2.2.2.2.2.2.2.2.1.2]; omega

/-- The 32 blocks of result window 11 tile its array: row `i` is in the block of point `i / 256`. -/
theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  have ht : (i 0).val / 256 < cfg0.N := by rw [hN]; omega
  refine ⟨⟨(i 0).val / 256, ht⟩, flush0_11 _, ?_⟩
  show i ∈ ((View.whole main_v4_2).slice (win0_11.rect ⟨(i 0).val / 256, ht⟩)).set
  rw [View.set_slice_whole, Rect.mem_set_unit]
  intro a
  match a with
  | ⟨0, _⟩ =>
    show win0_11.index ⟨(i 0).val / 256, ht⟩ 0 * 256 ≤ (i 0).val ∧ (i 0).val < win0_11.index ⟨(i 0).val / 256, ht⟩ 0 * 256 + 256
    rw [(idx_facts ⟨(i 0).val / 256, ht⟩).2.2.2.2.2.2.2.2.2.2.2.1.1]
    show (i 0).val / 256 * 256 ≤ (i 0).val ∧ (i 0).val < (i 0).val / 256 * 256 + 256
    omega
  | ⟨1, _⟩ =>
    show win0_11.index ⟨(i 0).val / 256, ht⟩ 1 * 1024 ≤ (i 1).val ∧ (i 1).val < win0_11.index ⟨(i 0).val / 256, ht⟩ 1 * 1024 + 1024
    rw [(idx_facts ⟨(i 0).val / 256, ht⟩).2.2.2.2.2.2.2.2.2.2.2.1.2]
    omega

/-- Entry `(p, q)` of point `t`'s block of result window 12 sits at `(256·t + p, q)` of the array. -/
theorem emb12 (t : Fin cfg0.N) (p : Fin 256) (q : Fin 1024) :
    ((cfg0.win 12).blk t).view.emb (ix2 p q) = (ix2 (row t p) q : S8192x1024.Idx) := by
  funext a; apply Fin.ext
  match a with
  | ⟨0, _⟩ => show win0_12.index t 0 * 256 + 1 * p.val = 256 * t.val + p.val; rw [(idx_facts t).2.2.2.2.2.2.2.2.2.2.2.2.1]; omega
  | ⟨1, _⟩ => show win0_12.index t 1 * 1024 + 1 * q.val = q.val; rw [(idx_facts t).2.2.2.2.2.2.2.2.2.2.2.2.2]; omega

/-- The 32 blocks of result window 12 tile its array: row `i` is in the block of point `i / 256`. -/
theorem cover12 (i : S8192x1024.Idx) :
    ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  have ht : (i 0).val / 256 < cfg0.N := by rw [hN]; omega
  refine ⟨⟨(i 0).val / 256, ht⟩, flush0_12 _, ?_⟩
  show i ∈ ((View.whole main_v4_3).slice (win0_12.rect ⟨(i 0).val / 256, ht⟩)).set
  rw [View.set_slice_whole, Rect.mem_set_unit]
  intro a
  match a with
  | ⟨0, _⟩ =>
    show win0_12.index ⟨(i 0).val / 256, ht⟩ 0 * 256 ≤ (i 0).val ∧ (i 0).val < win0_12.index ⟨(i 0).val / 256, ht⟩ 0 * 256 + 256
    rw [(idx_facts ⟨(i 0).val / 256, ht⟩).2.2.2.2.2.2.2.2.2.2.2.2.1]
    show (i 0).val / 256 * 256 ≤ (i 0).val ∧ (i 0).val < (i 0).val / 256 * 256 + 256
    omega
  | ⟨1, _⟩ =>
    show win0_12.index ⟨(i 0).val / 256, ht⟩ 1 * 1024 ≤ (i 1).val ∧ (i 1).val < win0_12.index ⟨(i 0).val / 256, ht⟩ 1 * 1024 + 1024
    rw [(idx_facts ⟨(i 0).val / 256, ht⟩).2.2.2.2.2.2.2.2.2.2.2.2.2]
    omega

/-! ## What each point writes back is its block of the result -/

theorem flushed10_eq (c : Dev nD) (t : Fin cfg0.N) :
    (dats m 0 c).flushed 10 t = ((cfg0.win 10).blk t).view.read (Elt Ideal) (G10 m c) := by
  rw [Value.flushed10]
  funext j
  show out0_10 (iblk m c 0 t) (iblk m c 1 t) (iblk m c 2 t) (iblk m c 3 t) (iblk m c 4 t) (iblk m c 5 t) (iblk m c 6 t) (iblk m c 7 t) (iblk m c 8 t) j
    = G10 m c (((cfg0.win 10).blk t).view.emb j)
  obtain ⟨p, q, rfl⟩ : ∃ (p : Fin 256) (q : Fin 1024), j = ix2 p q := ⟨j 0, j 1, eq_ix2 j⟩
  rw [emb10 t p q]
  refine (out10_apply (iblk m c 0 t) (iblk m c 1 t) (iblk m c 2 t) (iblk m c 3 t) (iblk m c 4 t) (iblk m c 5 t) (iblk m c 6 t) (iblk m c 7 t) (iblk m c 8 t) p q).trans ?_
  exact exc_blk m c t p q

theorem flushed12_eq (c : Dev nD) (t : Fin cfg0.N) :
    (dats m 0 c).flushed 12 t = ((cfg0.win 12).blk t).view.read (Elt Ideal) (G12 m c) := by
  rw [Value.flushed12]
  funext j
  show out0_12 (iblk m c 0 t) (iblk m c 1 t) (iblk m c 2 t) (iblk m c 3 t) (iblk m c 4 t) (iblk m c 5 t) (iblk m c 6 t) (iblk m c 7 t) (iblk m c 8 t) j
    = G12 m c (((cfg0.win 12).blk t).view.emb j)
  obtain ⟨p, q, rfl⟩ : ∃ (p : Fin 256) (q : Fin 1024), j = ix2 p q := ⟨j 0, j 1, eq_ix2 j⟩
  rw [emb12 t p q]
  refine (out12_apply (iblk m c 0 t) (iblk m c 1 t) (iblk m c 2 t) (iblk m c 3 t) (iblk m c 4 t) (iblk m c 5 t) (iblk m c 6 t) (iblk m c 7 t) (iblk m c 8 t) p q).trans ?_
  exact inh_blk m c t p q

theorem flushed9_eq (c : Dev nD) (t : Fin cfg0.N) :
    (dats m 0 c).flushed 9 t = ((cfg0.win 9).blk t).view.read (Elt Ideal) (G9 m c) := by
  rw [Value.flushed9]
  funext j
  show out0_9 (iblk m c 0 t) (iblk m c 1 t) (iblk m c 2 t) (iblk m c 3 t) (iblk m c 4 t) (iblk m c 5 t) (iblk m c 6 t) (iblk m c 7 t) (iblk m c 8 t) j
    = G9 m c (((cfg0.win 9).blk t).view.emb j)
  obtain ⟨p, q, rfl⟩ : ∃ (p : Fin 256) (q : Fin 1024), j = ix2 p q := ⟨j 0, j 1, eq_ix2 j⟩
  rw [emb9 t p q]
  refine (out9_apply (iblk m c 0 t) (iblk m c 1 t) (iblk m c 2 t) (iblk m c 3 t) (iblk m c 4 t) (iblk m c 5 t) (iblk m c 6 t) (iblk m c 7 t) (iblk m c 8 t) p q).trans ?_
  rw [exc_blk m c t p q, blk7 m c t]
  rfl

theorem flushed11_eq (c : Dev nD) (t : Fin cfg0.N) :
    (dats m 0 c).flushed 11 t = ((cfg0.win 11).blk t).view.read (Elt Ideal) (G11 m c) := by
  rw [Value.flushed11]
  funext j
  show out0_11 (iblk m c 0 t) (iblk m c 1 t) (iblk m c 2 t) (iblk m c 3 t) (iblk m c 4 t) (iblk m c 5 t) (iblk m c 6 t) (iblk m c 7 t) (iblk m c 8 t) j
    = G11 m c (((cfg0.win 11).blk t).view.emb j)
  obtain ⟨p, q, rfl⟩ : ∃ (p : Fin 256) (q : Fin 1024), j = ix2 p q := ⟨j 0, j 1, eq_ix2 j⟩
  rw [emb11 t p q]
  refine (out11_apply (iblk m c 0 t) (iblk m c 1 t) (iblk m c 2 t) (iblk m c 3 t) (iblk m c 4 t) (iblk m c 5 t) (iblk m c 6 t) (iblk m c 7 t) (iblk m c 8 t) p q).trans ?_
  rw [inh_blk m c t p q, blk7 m c t]
  rfl

/-! ## The arrays after the run -/

theorem final9 (c : Dev nD) : (dats m 0 c).arrAt 9 cfg0.N = G9 m c :=
  (dats m 0 c).arrAt_eq_of_cover 9 (G9 m c) (fun t _ => flushed9_eq m c t) cover9
theorem final10 (c : Dev nD) : (dats m 0 c).arrAt 10 cfg0.N = G10 m c :=
  (dats m 0 c).arrAt_eq_of_cover 10 (G10 m c) (fun t _ => flushed10_eq m c t) cover10
theorem final11 (c : Dev nD) : (dats m 0 c).arrAt 11 cfg0.N = G11 m c :=
  (dats m 0 c).arrAt_eq_of_cover 11 (G11 m c) (fun t _ => flushed11_eq m c t) cover11
theorem final12 (c : Dev nD) : (dats m 0 c).arrAt 12 cfg0.N = G12 m c :=
  (dats m 0 c).arrAt_eq_of_cover 12 (G12 m c) (fun t _ => flushed12_eq m c t) cover12

/-- The kernel's run, read: each result array at the cell step of the arguments, the arguments unchanged. -/
theorem run : θ_run defs (onTc (τ := τ) (main (F := Ideal))) ⟨m, fun _ => 0, ρ⟩ fun r => ∀ c : Dev nD,
      r.2.mem ((c : Thread nD τ).loc main_v4_0) = G9 m c
      ∧ r.2.mem ((c : Thread nD τ).loc main_v4_1) = G10 m c
      ∧ r.2.mem ((c : Thread nD τ).loc main_v4_2) = G11 m c
      ∧ r.2.mem ((c : Thread nD τ).loc main_v4_3) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c),
      (h c).2.2.1.trans (final11 m c), (h c).2.2.2.1.trans (final12 m c), (h c).2.2.2.2⟩)
    (Value.run_blocks m ρ)

end Cert.KernelIdeal.Blocks

end
-- ==== Proof.RefValue.lean ====
/-
  The reference's four results are the cell step.

  The host program slices the input weights, thresholds and gains into their halves, forms each potential from two
  `dot_general`s — the excitatory one SUBTRACTS the spikes' product with the negated recurrent weights, the inhibitory one
  subtracts the product with their transpose —, rectifies, and compares against zero. Read one operation at a time at an
  entry `(r, s)`, every operand index is `(r, k)`, `(k, s)`, `(s, k)` or the unit's column, and the only step that is not a
  renaming is the excitatory subtraction, which needs the spikes and the recurrent weights to be real numbers.
-/
import proofs.«150868_j81862076661763_1_alg».proof.Proof.Gen.ReferenceIdeal.Read
import proofs.«150868_j81862076661763_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operand indices at entry `(r, s)` -/

theorem lidx6 (r : Fin 8192) (s : Fin 1024) (k : Fin 512) : lidx_main_v6 (ix2 r s) k = ix2 r k :=
  funext fun a => Fin.ext (by match a with | ⟨0, _⟩ => rfl | ⟨1, _⟩ => rfl)
theorem ridx6 (r : Fin 8192) (s : Fin 1024) (k : Fin 512) : idx_main_v0 (ridx_main_v6 (ix2 r s) k) = ix2 k (Cell.exc s) :=
  funext fun a => Fin.ext (by match a with | ⟨0, _⟩ => rfl | ⟨1, _⟩ => rfl)
theorem lidx25 (r : Fin 8192) (s : Fin 1024) (k : Fin 512) : lidx_main_v25 (ix2 r s) k = ix2 r k :=
  funext fun a => Fin.ext (by match a with | ⟨0, _⟩ => rfl | ⟨1, _⟩ => rfl)
theorem ridx25 (r : Fin 8192) (s : Fin 1024) (k : Fin 512) : idx_main_v1 (ridx_main_v25 (ix2 r s) k) = ix2 k (Cell.inh s) :=
  funext fun a => Fin.ext (by match a with | ⟨0, _⟩ => rfl | ⟨1, _⟩ => rfl)
theorem lidx9 (r : Fin 8192) (s : Fin 1024) (k : Fin 1024) : lidx_main_v9 (ix2 r s) k = ix2 r k :=
  funext fun a => Fin.ext (by match a with | ⟨0, _⟩ => rfl | ⟨1, _⟩ => rfl)
theorem ridx9 (r : Fin 8192) (s : Fin 1024) (k : Fin 1024) : ridx_main_v9 (ix2 r s) k = ix2 k s :=
  funext fun a => Fin.ext (by match a with | ⟨0, _⟩ => rfl | ⟨1, _⟩ => rfl)
theorem lidx28 (r : Fin 8192) (s : Fin 1024) (k : Fin 1024) : lidx_main_v28 (ix2 r s) k = ix2 r k :=
  funext fun a => Fin.ext (by match a with | ⟨0, _⟩ => rfl | ⟨1, _⟩ => rfl)
theorem ridx28 (r : Fin 8192) (s : Fin 1024) (k : Fin 1024) : idx_main_v27 (ridx_main_v28 (ix2 r s) k) = ix2 s k :=
  funext fun a => Fin.ext (by match a with | ⟨0, _⟩ => rfl | ⟨1, _⟩ => rfl)
theorem idxLexc (r : Fin 8192) (s : Fin 1024) : idx_main_v4 (idx_main_v11 (idx_main_v12 (ix2 r s))) = ix1 (Cell.exc s) :=
  funext fun a => Fin.ext (by match a with | ⟨0, _⟩ => rfl)
theorem idxLinh (r : Fin 8192) (s : Fin 1024) : idx_main_v5 (idx_main_v30 (idx_main_v31 (ix2 r s))) = ix1 (Cell.inh s) :=
  funext fun a => Fin.ext (by match a with | ⟨0, _⟩ => rfl)
theorem idxBexc (r : Fin 8192) (s : Fin 1024) : idx_main_v2 (idx_main_v19 (idx_main_v20 (ix2 r s))) = ix1 (Cell.exc s) :=
  funext fun a => Fin.ext (by match a with | ⟨0, _⟩ => rfl)
theorem idxBinh (r : Fin 8192) (s : Fin 1024) : idx_main_v3 (idx_main_v38 (idx_main_v39 (ix2 r s))) = ix1 (Cell.inh s) :=
  funext fun a => Fin.ext (by match a with | ⟨0, _⟩ => rfl)

/-! ## The two states -/

/-- The reference's excitatory state at `(r, s)`. -/
theorem sExc_apply (x0 : Cell.Mat 8192 512) (x1 x2 x3 : Cell.Mat 8192 1024) (x5 : Cell.Mat 512 2048) (x6 : Cell.Mat 1024 1024)
    (x8 : Cell.Row 2048) (h3 : ∀ i, ∃ v : ℝ, x3 i = v) (h6 : ∀ i, ∃ v : ℝ, x6 i = v) (r : Fin 8192) (s : Fin 1024) :
    val_main_v18 (F := Ideal) x0 x1 x2 x3 x5 x6 x8 (ix2 r s) = Cell.sExc x0 x1 x2 x3 x5 x6 x8 r s := by
  rw [val_main_v18_apply, val_main_v17_apply, val_main_v10_apply, val_main_v7_apply, val_main_v6_apply, val_main_v9_apply,
    val_main_v16_apply, val_main_v13_apply, val_main_v12_apply, val_main_v11_apply, val_main_v4_apply, val_main_v15_apply,
    val_main_v14_apply, val_main_cst_apply, val_main_call0_v0_apply, val_main_call0_cst_apply]
  simp only [val_main_v0_apply, val_main_v8_apply, lidx6, ridx6, lidx9, ridx9, idxLexc]
  show max (((∑ k : Fin 512, x0 (ix2 r k) * x5 (ix2 k (Cell.exc s))) + x1 (ix2 r s)
        - ∑ k : Fin 1024, x3 (ix2 r k) * -(x6 (ix2 k s)))
      + (x8 (ix1 (Cell.exc s)) * x2 (ix2 r s)) * (Cell.one - x1 (ix2 r s))) Cell.zero = _
  rw [Cell.sub_sum_mul_neg _ _ _ (fun k => h3 _) (fun k => h6 _)]
  rfl

/-- The reference's inhibitory state at `(r, s)`. -/
theorem sInh_apply (x0 : Cell.Mat 8192 512) (x1 x3 x4 : Cell.Mat 8192 1024) (x5 : Cell.Mat 512 2048) (x6 : Cell.Mat 1024 1024)
    (x8 : Cell.Row 2048) (r : Fin 8192) (s : Fin 1024) :
    val_main_v37 (F := Ideal) x0 x1 x3 x4 x5 x6 x8 (ix2 r s) = Cell.sInh x0 x1 x3 x4 x5 x6 x8 r s := by
  rw [val_main_v37_apply, val_main_v36_apply, val_main_v29_apply, val_main_v26_apply, val_main_v25_apply, val_main_v28_apply,
    val_main_v35_apply, val_main_v32_apply, val_main_v31_apply, val_main_v30_apply, val_main_v5_apply, val_main_v34_apply,
    val_main_v33_apply, val_main_cst_1_apply, val_main_call1_v0_apply, val_main_call1_cst_apply]
  simp only [val_main_v1_apply, val_main_v27_apply, lidx25, ridx25, lidx28, ridx28, idxLinh]
  rfl

/-! ## The four result arrays -/

theorem outSExc_eq (x0 : Cell.Mat 8192 512) (x1 x2 x3 : Cell.Mat 8192 1024) (x5 : Cell.Mat 512 2048) (x6 : Cell.Mat 1024 1024)
    (x8 : Cell.Row 2048) (h3 : ∀ i, ∃ v : ℝ, x3 i = v) (h6 : ∀ i, ∃ v : ℝ, x6 i = v) :
    val_main_v18 (F := Ideal) x0 x1 x2 x3 x5 x6 x8 = Cell.outSExc x0 x1 x2 x3 x5 x6 x8 := by
  funext i
  obtain ⟨r, s, rfl⟩ : ∃ (r : Fin 8192) (s : Fin 1024), i = ix2 r s := ⟨i 0, i 1, eq_ix2 i⟩
  exact sExc_apply x0 x1 x2 x3 x5 x6 x8 h3 h6 r s

theorem outSInh_eq (x0 : Cell.Mat 8192 512) (x1 x3 x4 : Cell.Mat 8192 1024) (x5 : Cell.Mat 512 2048) (x6 : Cell.Mat 1024 1024)
    (x8 : Cell.Row 2048) :
    val_main_v37 (F := Ideal) x0 x1 x3 x4 x5 x6 x8 = Cell.outSInh x0 x1 x3 x4 x5 x6 x8 := by
  funext i
  obtain ⟨r, s, rfl⟩ : ∃ (r : Fin 8192) (s : Fin 1024), i = ix2 r s := ⟨i 0, i 1, eq_ix2 i⟩
  exact sInh_apply x0 x1 x3 x4 x5 x6 x8 r s

theorem outYExc_eq (x0 : Cell.Mat 8192 512) (x1 x2 x3 : Cell.Mat 8192 1024) (x5 : Cell.Mat 512 2048) (x6 : Cell.Mat 1024 1024)
    (x7 x8 : Cell.Row 2048) (h3 : ∀ i, ∃ v : ℝ, x3 i = v) (h6 : ∀ i, ∃ v : ℝ, x6 i = v) :
    val_main_v24 (F := Ideal) x0 x1 x2 x3 x5 x6 x7 x8 = Cell.outYExc x0 x1 x2 x3 x5 x6 x7 x8 := by
  funext i
  obtain ⟨r, s, rfl⟩ : ∃ (r : Fin 8192) (s : Fin 1024), i = ix2 r s := ⟨i 0, i 1, eq_ix2 i⟩
  rw [val_main_v24_apply, val_main_v23_apply, val_main_v21_apply, val_main_v20_apply, val_main_v19_apply, val_main_v2_apply,
    val_main_v22_apply, val_main_cst_0_apply, sExc_apply x0 x1 x2 x3 x5 x6 x8 h3 h6 r s, idxBexc]
  exact (Cell.fire_eq_unsigned _).symm

theorem outYInh_eq (x0 : Cell.Mat 8192 512) (x1 x3 x4 : Cell.Mat 8192 1024) (x5 : Cell.Mat 512 2048) (x6 : Cell.Mat 1024 1024)
    (x7 x8 : Cell.Row 2048) :
    val_main_v43 (F := Ideal) x0 x1 x3 x4 x5 x6 x7 x8 = Cell.outYInh x0 x1 x3 x4 x5 x6 x7 x8 := by
  funext i
  obtain ⟨r, s, rfl⟩ : ∃ (r : Fin 8192) (s : Fin 1024), i = ix2 r s := ⟨i 0, i 1, eq_ix2 i⟩
  rw [val_main_v43_apply, val_main_v42_apply, val_main_v40_apply, val_main_v39_apply, val_main_v38_apply, val_main_v3_apply,
    val_main_v41_apply, val_main_cst_2_apply, sInh_apply x0 x1 x3 x4 x5 x6 x8 r s, idxBinh]
  exact (Cell.fire_eq_unsigned _).symm

end Cert.ReferenceIdeal.RefValue

end
-- ==== Proof.Finite.lean ====
/-
  Finite inputs are real numbers.

  The precondition is the conjunction, over the nine arguments, of "every entry's absolute value is below +∞". On the
  extended reals `max x (−x) < ⊤` excludes both infinities, so each entry of the inhibitory spikes and of the recurrent
  weights — the two arrays whose entries the reference's negated product needs real — is a real number.
-/
import proofs.«150868_j81862076661763_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs

instance : Subsingleton S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ v : ℝ, x = v := by
  have htop : Ideal.ofBits .f32 0x7F800000#32 = ⊤ := by simp [Ideal.ofBits, Ideal.ieee]
  rw [htop] at h
  induction x using EReal.rec with
  | bot => simp [Ideal.cmp] at h
  | coe v => exact ⟨v, rfl⟩
  | top => simp [Ideal.cmp] at h

variable [Facts]

/-- Under the precondition every inhibitory spike and every recurrent weight is a real number. -/
theorem real_of_pre (a0 : FVec Ideal S8192x512 .f32) (a1 a2 a3 a4 : FVec Ideal S8192x1024 .f32) (a5 : FVec Ideal S512x2048 .f32)
    (a6 : FVec Ideal S1024x1024 .f32) (a7 a8 : FVec Ideal S2048 .f32)
    (h : fn (F := Ideal) a0 a1 a2 a3 a4 a5 a6 a7 a8 = fun _ => 1#1) :
    (∀ i, ∃ v : ℝ, a3 i = v) ∧ (∀ i, ∃ v : ℝ, a6 i = v) := by
  have h0 := congrFun h ValueIdx.ix0
  dsimp only [fn, fn_part1, fn_part2] at h0
  obtain ⟨h1, -⟩ := IntOp.andi_eq_one.mp h0
  obtain ⟨h2, -⟩ := IntOp.andi_eq_one.mp h1
  obtain ⟨h3, e6⟩ := IntOp.andi_eq_one.mp h2
  obtain ⟨h4, -⟩ := IntOp.andi_eq_one.mp h3
  obtain ⟨h5, -⟩ := IntOp.andi_eq_one.mp h4
  obtain ⟨-, e3⟩ := IntOp.andi_eq_one.mp h5
  exact ⟨fun i => real_of_abs_lt (a3 i) (Host.reduce_andi_all _ _ _ _ _ e3 i),
    fun i => real_of_abs_lt (a6 i) (Host.reduce_andi_all _ _ _ _ _ e6 i)⟩

end Cert.Pre_finite_inputs.Finite

end
-- ==== Proof.lean ====
/-
  The certificate of the excitatory/inhibitory spiking-cell step: a Pallas kernel tiled over 32 blocks of 256 batch rows
  against its jnp reference, equal over the extended reals.

  Both programs compute, for each batch row and each of the 1024 units of a half,

      sExc = max (X·W_exc + Ye + Yi·E  + L_exc ⊙ Se ⊙ (1 − Ye)) 0,   yExc = [sExc + B_exc > 0],
      sInh = max (X·W_inh + Yi − Ye·Eᵀ + L_inh ⊙ Si ⊙ (1 − Yi)) 0,   yInh = [sInh + B_inh > 0]

  (Proof/Spec.lean). The kernel narrows its matrix products' operands to bf16 (the identity on the extended reals),
  multiplies into zero accumulators, contracts the recurrent weights' LAST axis for the inhibitory half, and turns each
  comparison bit into a float through a 32-bit signed integer; the reference slices the weights on the host, SUBTRACTS the
  product with the NEGATED recurrent weights for the excitatory half, transposes them for the inhibitory half, and converts
  the comparison bit unsigned. The frames of the two kernel programs are the generated ones, the reference's frame is its
  generated run; the idealization rewrote nothing, so `preserves` is trivial. For `algebraic`: the kernel's four result
  arrays are the step's formula block by block (Proof/Body.lean, Proof/Blocks.lean, over the generated frame run), the
  reference's are the same formula one operation at a time (Proof/RefValue.lean, over the generated read lemmas), and the
  only law between the two sides that is not a renaming — `a − Σ y·(−e) = a + Σ y·e` — holds because the precondition makes
  the inhibitory spikes and the recurrent weights real numbers (Proof/Finite.lean).
-/
import proofs.«150868_j81862076661763_1_alg».proof.Defs
import proofs.«150868_j81862076661763_1_alg».proof.Proof.Gen.Kernel
import proofs.«150868_j81862076661763_1_alg».proof.Proof.Gen.Kernel.Skeleton
import proofs.«150868_j81862076661763_1_alg».proof.Proof.Gen.Kernel.Launch
import proofs.«150868_j81862076661763_1_alg».proof.Proof.Gen.Kernel.Points
import proofs.«150868_j81862076661763_1_alg».proof.Proof.Gen.Kernel.Frame
import proofs.«150868_j81862076661763_1_alg».proof.Proof.Gen.KernelIdeal
import proofs.«150868_j81862076661763_1_alg».proof.Proof.Gen.KernelIdeal.Skeleton
import proofs.«150868_j81862076661763_1_alg».proof.Proof.Gen.KernelIdeal.Launch
import proofs.«150868_j81862076661763_1_alg».proof.Proof.Gen.KernelIdeal.Points
import proofs.«150868_j81862076661763_1_alg».proof.Proof.Gen.KernelIdeal.Frame
import proofs.«150868_j81862076661763_1_alg».proof.Proof.Gen.ReferenceIdeal
import proofs.«150868_j81862076661763_1_alg».proof.Proof.Gen.Pre_finite_inputs
import proofs.«150868_j81862076661763_1_alg».proof.Proof.Gen.KernelIdeal.Value
import proofs.«150868_j81862076661763_1_alg».proof.Proof.Gen.ReferenceIdeal.Run
import proofs.«150868_j81862076661763_1_alg».proof.Proof.Gen.ReferenceIdeal.Read
import proofs.«150868_j81862076661763_1_alg».proof.Proof.Blocks
import proofs.«150868_j81862076661763_1_alg».proof.Proof.RefValue
import proofs.«150868_j81862076661763_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with the four result arrays at the cell step of the (agreeing) arguments. -/
theorem algebraic : Cert.algebraic_KernelIdeal_ReferenceIdeal := by
  intro m ρ m' ρ' hpre hagree
  refine ⟨fun c => Cert.KernelIdeal.Blocks.G9 m c, fun c => Cert.KernelIdeal.Blocks.G10 m c,
    fun c => Cert.KernelIdeal.Blocks.G11 m c, fun c => Cert.KernelIdeal.Blocks.G12 m c,
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨hy, he⟩ := Cert.Pre_finite_inputs.Finite.real_of_pre _ _ _ _ _ _ _ _ _ (hpre c)
  refine ⟨(h c).1.trans ?_, (h c).2.1.trans ?_, (h c).2.2.1.trans ?_, (h c).2.2.2.1.trans ?_, (h c).2.2.2.2⟩
  · rw [a0, a1, a2, a3, a5, a6, a7, a8]
    exact Cert.ReferenceIdeal.RefValue.outYExc_eq _ _ _ _ _ _ _ _ hy he
  · rw [a0, a1, a2, a3, a5, a6, a8]
    exact Cert.ReferenceIdeal.RefValue.outSExc_eq _ _ _ _ _ _ _ hy he
  · rw [a0, a1, a3, a4, a5, a6, a7, a8]
    exact Cert.ReferenceIdeal.RefValue.outYInh_eq _ _ _ _ _ _ _ _
  · rw [a0, a1, a3, a4, a5, a6, a8]
    exact Cert.ReferenceIdeal.RefValue.outSInh_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
